-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x8192 : Shape := ⟨3, ![8, 2048, 8192]⟩
abbrev S8192x8000 : Shape := ⟨2, ![8192, 8000]⟩
abbrev S_ : Shape := ⟨0, ![]⟩

class Facts : Prop where
  bcast_S_S8x2048x8192 : S_.BroadcastsInDim S8x2048x8192 (![] : Fin 0 → Fin S8x2048x8192.rank)
  reducesTo_S8x2048x8192_S_d0_1_2 : S8x2048x8192.ReducesTo [0, 1, 2] S_
  h_S_ : 0 < S_.numel
  bcast_S_S8192x8000 : S_.BroadcastsInDim S8192x8000 (![] : Fin 0 → Fin S8192x8000.rank)
  reducesTo_S8192x8000_S_d0_1 : S8192x8000.ReducesTo [0, 1] S_

variable [Facts]

def fn {F : FTy → Type} [FloatOps F] (main_arg0 : FVec F S8x2048x8192 .f32) (main_arg1 : FVec F S8192x8000 .f32) : IVec S_ 1 :=
  let main_v0 : FVec F S8x2048x8192 .f32 := Host.absf main_arg0
  let main_cst : FVec F S_ .f32 := constant S_ .f32 0x7F800000#32
  let main_v1 : FVec F S8x2048x8192 .f32 := broadcastInDim S8x2048x8192 ![] bcast_S_S8x2048x8192 main_cst
  let main_v2 : IVec S8x2048x8192 1 := cmpf .olt main_v0 main_v1
  let main_c : IVec S_ 1 := constantI S_ 1 1#1
  let main_v3 : IVec S_ 1 := (fun x v => Host.reduce IntOp.andi x v reducesTo_S8x2048x8192_S_d0_1_2 h_S_) main_v2 main_c
  let main_v4 : FVec F S8192x8000 .f32 := Host.absf main_arg1
  let main_cst_0 : FVec F S_ .f32 := constant S_ .f32 0x7F800000#32
  let main_v5 : FVec F S8192x8000 .f32 := broadcastInDim S8192x8000 ![] bcast_S_S8192x8000 main_cst_0
  let main_v6 : IVec S8192x8000 1 := cmpf .olt main_v4 main_v5
  let main_c_1 : IVec S_ 1 := constantI S_ 1 1#1
  let main_v7 : IVec S_ 1 := (fun x v => Host.reduce IntOp.andi x v reducesTo_S8192x8000_S_d0_1 h_S_) main_v6 main_c_1
  let main_v8 : IVec S_ 1 := andi main_v3 main_v7
  main_v8
-- ==== Kernel.lean ====
abbrev S8x2048x8192 : Shape := ⟨3, ![8, 2048, 8192]⟩
abbrev S8192x8000 : Shape := ⟨2, ![8192, 8000]⟩
abbrev S8x2046x8192 : Shape := ⟨3, ![8, 2046, 8192]⟩
abbrev S16368x8192 : Shape := ⟨2, ![16368, 8192]⟩
abbrev S_ : Shape := ⟨0, ![]⟩
abbrev S16384x8192 : Shape := ⟨2, ![16384, 8192]⟩
abbrev S8192x8192 : Shape := ⟨2, ![8192, 8192]⟩
abbrev S1024x1024 : Shape := ⟨2, ![1024, 1024]⟩
abbrev S16368x8000 : Shape := ⟨2, ![16368, 8000]⟩
abbrev S8x2046x8000 : Shape := ⟨3, ![8, 2046, 8000]⟩

abbrev nBuf : Space → Nat
  | .hbm => 13
  | .vmem => 7
  | .smem => 0
  | _ => 0

abbrev bufTy : (tb : Table) → Fin (tcTables nBuf tb) → BufTy
  | .hbm, ⟨0, _⟩ => ⟨S8x2048x8192, .f32⟩
  | .hbm, ⟨1, _⟩ => ⟨S8192x8000, .f32⟩
  | .hbm, ⟨2, _⟩ => ⟨S8x2046x8192, .f32⟩
  | .hbm, ⟨3, _⟩ => ⟨S16368x8192, .f32⟩
  | .hbm, ⟨4, _⟩ => ⟨S_, .i32⟩
  | .hbm, ⟨5, _⟩ => ⟨S_, .f32⟩
  | .hbm, ⟨6, _⟩ => ⟨S16384x8192, .f32⟩
  | .hbm, ⟨7, _⟩ => ⟨S_, .i32⟩
  | .hbm, ⟨8, _⟩ => ⟨S_, .f32⟩
  | .hbm, ⟨9, _⟩ => ⟨S8192x8192, .f32⟩
  | .hbm, ⟨10, _⟩ => ⟨S16384x8192, .f32⟩
  | .hbm, ⟨11, _⟩ => ⟨S16368x8000, .f32⟩
  | .hbm, ⟨12, _⟩ => ⟨S8x2046x8000, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S8x2048x8192_S8x2046x8192_0_1_0 : S8x2048x8192.Slices ![0, 1, 0] S8x2046x8192
  shapeCasts_S8x2046x8192_S16368x8192 : S8x2046x8192.ShapeCasts S16368x8192
  pads_S16368x8192_S16384x8192_0160_000 : S16368x8192.Pads (![0, 0] : Fin 2 → Nat) ![16, 0] ![0, 0] S16384x8192
  h_S_ : 0 < S_.numel
  pads_S8192x8000_S8192x8192_000_01920 : S8192x8000.Pads (![0, 0] : Fin 2 → Nat) ![0, 192] ![0, 0] S8192x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  slices_S16384x8192_S16368x8000_0_0 : S16384x8192.Slices ![0, 0] S16368x8000
  shapeCasts_S16368x8000_S8x2046x8000 : S16368x8000.ShapeCasts S8x2046x8000
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x8192.size a
  hwx0_0 : ∀ i : grid0.Coords, EltTy.bits .f32 = 32 ∨ (Rect.block (s := S16384x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x8192.size a
  hwx0_2 : ∀ i : grid0.Coords, EltTy.bits .f32 = 32 ∨ (Rect.block (s := S16384x8192) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x8192 : Shape := ⟨3, ![8, 2048, 8192]⟩
abbrev S8192x8000 : Shape := ⟨2, ![8192, 8000]⟩
abbrev S8x2046x8192 : Shape := ⟨3, ![8, 2046, 8192]⟩
abbrev S8x2046x8000 : Shape := ⟨3, ![8, 2046, 8000]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x8192, .f32⟩
  | .hbm, ⟨1, _⟩ => ⟨S8192x8000, .f32⟩
  | .hbm, ⟨2, _⟩ => ⟨S8x2046x8192, .f32⟩
  | .hbm, ⟨3, _⟩ => ⟨S8x2046x8000, .f32⟩
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  slices_S8x2048x8192_S8x2046x8192_0_1_0 : S8x2048x8192.Slices ![0, 1, 0] S8x2046x8192
  dot_S8x2046x8192_S8192x8000_S8x2046x8000_2_0_01_1_n_n_wf : DotDims.WF S8x2046x8192 S8192x8000 S8x2046x8000 [2] [0] [0, 1] [1] [] []

variable [Facts₀]

def dot_S8x2046x8192_S8192x8000_S8x2046x8000_2_0_01_1_n_n : DotDims S8x2046x8192 S8192x8000 S8x2046x8000 where
  lhsContracting := [2]
  rhsContracting := [0]
  lhsNonContracting := [0, 1]
  rhsNonContracting := [1]
  lhsBatch := []
  rhsBatch := []
  wf := dot_S8x2046x8192_S8192x8000_S8x2046x8000_2_0_01_1_n_n_wf

class Facts : Prop extends Facts₀ where

variable [Facts]
-- ==== Proof.KernelPieces.lean ====
/-
  What one grid point of the blocked matrix product leaves behind, as values.

  The kernel body keeps a running block `acc` in a scratch buffer. At a point it (when the contraction-block
  coordinate is 0) first clears `acc`, then replaces `acc` by `acc + a · b` for the point's two input blocks `a`, `b`,
  and (when the contraction-block coordinate is the last) copies `acc` to the output block. So, for the body's one
  arithmetic term `k0_pay2 a b acc` (the sum `acc + a · b`) and the cleared block `k0_pay1`:
    * first contraction block:   the scratch ends at `k0_pay2 a b k0_pay1`;
    * a middle contraction block: the scratch ends at `k0_pay2 a b acc`;
    * the last contraction block: the scratch AND the output block end at `k0_pay2 a b acc`.
  Each statement reads the stores the body's run left (one store covering the whole block, in the first case over
  the clearing store) back as a value; they hold at every float instance.
-/
import proofs.«131804_j18124761989510_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

/-- Every access of the body starts at the block's origin. -/
theorem hz : (![0, 0] : Fin 2 → Nat) = fun _ => 0 := funext fun a => by fin_cases a <;> rfl

/-- First contraction block: the scratch is cleared, then the product of the two input blocks is added to it. -/
theorem scratch_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (x0 x1 : Vec F S1024x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle contraction block: the product of the two input blocks is added to what the scratch held. -/
theorem scratch_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i) (x0 x1 xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz]

/-- The last contraction block, the scratch: as in the middle. -/
theorem scratch_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 x1 xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

/-- The last contraction block, the output block: the updated scratch, copied. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 x1 xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz,
    View.readCov_unit_zero (S := S1024x1024) _ hz]

end Cert.KernelIdeal.Pieces

end
-- ==== Proof.Payload.lean ====
/-
  The body's arithmetic at one entry, over the extended reals.

  The body's term `k0_pay2 a b acc` is `acc + a · b` for 1024×1024 blocks, the product taken by the matrix unit after
  both operands are narrowed to bf16. At the ideal instance a change of float format is the identity and the matrix
  unit's product into a zero accumulator is the plain sum over the contracted axis, so entry `(p, q)` is
      acc (p, q) + ∑ j, a (p, j) * b (j, q),
  and the cleared block `k0_pay1` is zero at every entry.
-/
import proofs.«131804_j18124761989510_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-! ### Where the block product reads its operands: row `p` of the left one, column `q` of the right one -/

theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, at entry `(p, q)`: the sum over the 1024 contracted positions. -/
theorem blockProduct_apply (a b : FVec Ideal S1024x1024 .bf16) (p q : Fin 1024) :
    matmul dot_S1024x1024_S1024x1024_S1024x1024_1_0_0_1_n_n none a b (constant S1024x1024 .f32 0x00000000#32) (ix2 p q)
      = ∑ j : Fin 1024, a (ix2 p j) * b (ix2 j q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The update `acc + a · b` at entry `(p, q)`. -/
theorem update_apply (a b acc : FVec Ideal S1024x1024 .f32) (p q : Fin 1024) :
    k0_pay2 (F := Ideal) a b acc (ix2 p q) = acc (ix2 p q) + ∑ j : Fin 1024, a (ix2 p j) * b (ix2 j q) := by
  unfold k0_pay2
  rw [shapeCast_self, addf_apply, blockProduct_apply]
  simp only [truncf_apply, shapeCast_self]

/-- The cleared block is zero at every entry. -/
theorem cleared_apply (y : S1024x1024.Idx) : k0_pay1 (F := Ideal) y = 0 := by
  unfold k0_pay1
  rw [shapeCast_self, broadcast_apply]
  exact Ideal.ofBits_zero_f32

end Cert.KernelIdeal.Payload

end
-- ==== Proof.LibDotBlocks.lean ====
/-
  One entry of a matrix product, accumulated over consecutive stretches of the contracted axis.

  For matrices `A` (`ma × ka`) and `B` (`kb × nb`) over a commutative semiring-like carrier — here the extended reals,
  whose addition is commutative and associative, so that regrouping a finite sum costs nothing and needs no
  finiteness — `dotUpTo A B r c len` is the sum of `A (r, k) * B (k, c)` over the first `len` positions `k`. Entries are
  read with natural-number coordinates (`rd2`, zero outside the matrix), so that block offsets such as `i * 1024 + p`
  stay plain arithmetic. Three facts are all a block-by-block accumulation needs:
    * nothing summed is zero;
    * `b` more positions add the products at positions `len, …, len + b - 1`;
    * all positions: the entry `∑ k, A (r, k) * B (k, c)` of the product.
-/
import Idealize.ShloMosaic.Lib.ValueIdx
import Mathlib.Algebra.BigOperators.Fin
import Mathlib.Algebra.BigOperators.Group.Finset.Basic

open Idealize.ShloMosaic Idealize.ShloMosaic.ValueIdx

namespace Cert.LibDotBlocks

/-- Entry `(r, s)` of a matrix, read with natural-number coordinates: zero outside the matrix. -/
noncomputable def rd2 {a b : ℕ} (X : (⟨2, ![a, b]⟩ : Shape).Idx → EReal) (r s : ℕ) : EReal :=
  if h : r < a ∧ s < b then X (ix2 ⟨r, h.1⟩ ⟨s, h.2⟩) else 0

theorem rd2_of_lt {a b : ℕ} (X : (⟨2, ![a, b]⟩ : Shape).Idx → EReal) {r s : ℕ} (hr : r < a) (hs : s < b) :
    rd2 X r s = X (ix2 ⟨r, hr⟩ ⟨s, hs⟩) := dif_pos ⟨hr, hs⟩

/-- Row `r` of `A` times column `c` of `B`, over the first `len` contracted positions. -/
noncomputable def dotUpTo {ma ka kb nb : ℕ} (A : (⟨2, ![ma, ka]⟩ : Shape).Idx → EReal) (B : (⟨2, ![kb, nb]⟩ : Shape).Idx → EReal)
    (r c len : ℕ) : EReal :=
  ∑ k ∈ Finset.range len, rd2 A r k * rd2 B k c

variable {ma ka kb nb : ℕ} (A : (⟨2, ![ma, ka]⟩ : Shape).Idx → EReal) (B : (⟨2, ![kb, nb]⟩ : Shape).Idx → EReal)

/-- No position summed: zero. -/
theorem dotUpTo_zero (r c : ℕ) : dotUpTo A B r c 0 = 0 := Finset.sum_range_zero _

/-- `b` more positions add the products at positions `len + j`, `j < b`. -/
theorem dotUpTo_add (r c len b : ℕ) :
    dotUpTo A B r c (len + b) = dotUpTo A B r c len + ∑ j : Fin b, rd2 A r (len + j.val) * rd2 B (len + j.val) c := by
  unfold dotUpTo
  rw [Finset.sum_range_add, Finset.sum_range fun x => rd2 A r (len + x) * rd2 B (len + x) c]

/-- All positions of a product that fits (`A` is `M × K`, `B` is `K × N`): the product's entry. -/
theorem dotUpTo_full {M K N : ℕ} (A : (⟨2, ![M, K]⟩ : Shape).Idx → EReal) (B : (⟨2, ![K, N]⟩ : Shape).Idx → EReal)
    (r : Fin M) (c : Fin N) : dotUpTo A B r.val c.val K = ∑ k : Fin K, A (ix2 r k) * B (ix2 k c) := by
  unfold dotUpTo
  rw [Finset.sum_range fun k => rd2 A r.val k * rd2 B k c.val]
  exact Finset.sum_congr rfl fun k _ => by rw [rd2_of_lt A r.isLt k.isLt, rd2_of_lt B k.isLt c.isLt]

end Cert.LibDotBlocks
-- ==== Proof.Blocks.lean ====
/-
  The input blocks of a grid point, read off the two padded operand arrays.

  The grid is 16 × 8 × 8: point `t` has row-block `t / 64`, column-block `t / 8 % 8` and contraction-block `t % 8`.
  The left operand's window at `t` is block `(t / 64, t % 8)` of the padded left array (16384 × 8192), the right
  operand's window block `(t % 8, t / 8 % 8)` of the padded right array (8192 × 8192), the output's window block
  `(t / 64, t / 8 % 8)` of the 16384 × 8192 result; all blocks are 1024 × 1024. So entry `(p, j)` of the left block is
  entry `(t / 64 * 1024 + p, t % 8 * 1024 + j)` of the left array, and likewise on the right.
-/
import proofs.«131804_j18124761989510_1_alg».proof.Proof.Gen.KernelIdeal.Frame
import proofs.«131804_j18124761989510_1_alg».proof.Proof.LibDotBlocks
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Blocks

open Cert.KernelIdeal Cert.KernelIdeal.Gen Cert.LibDotBlocks

variable (m : (ℓ : Loc nD τ sig) → Buf (Elt Ideal) ℓ)

/-- The padded left operand (16384 × 8192) and the padded right operand (8192 × 8192) as the kernel region finds them. -/
abbrev lhsArr (c : Dev nD) : FVec Ideal S16384x8192 .f32 := V m c main_v2
abbrev rhsArr (c : Dev nD) : FVec Ideal S8192x8192 .f32 := V m c main_v3
/-- The two input blocks of point `t`. -/
abbrev lhsBlk (c : Dev nD) (t : Fin cfg0.N) : FVec Ideal S1024x1024 .f32 := iblk m c 0 t
abbrev rhsBlk (c : Dev nD) (t : Fin cfg0.N) : FVec Ideal S1024x1024 .f32 := iblk m c 1 t

/-- Which block each window is on at point `t`: decided over the 1024 points. -/
theorem index_lhs : ∀ t : Fin cfg0.N, win0_0.index t 0 = t.val / 64 ∧ win0_0.index t 1 = t.val % 8 :=
  (by decide +kernel : ∀ t : Fin grid0.N, win0_0.index t 0 = t.val / 64 ∧ win0_0.index t 1 = t.val % 8)
theorem index_rhs : ∀ t : Fin cfg0.N, win0_1.index t 0 = t.val % 8 ∧ win0_1.index t 1 = t.val / 8 % 8 :=
  (by decide +kernel : ∀ t : Fin grid0.N, win0_1.index t 0 = t.val % 8 ∧ win0_1.index t 1 = t.val / 8 % 8)
theorem index_out : ∀ t : Fin cfg0.N, win0_2.index t 0 = t.val / 64 ∧ win0_2.index t 1 = t.val / 8 % 8 :=
  (by decide +kernel : ∀ t : Fin grid0.N, win0_2.index t 0 = t.val / 64 ∧ win0_2.index t 1 = t.val / 8 % 8)

theorem point_lt (t : Fin cfg0.N) : t.val < 1024 := lt_of_lt_of_eq t.isLt (show cfg0.N = 1024 from N_0)

/-- Entry `(p, j)` of the left block at `t` is entry `(t / 64 * 1024 + p, t % 8 * 1024 + j)` of the left array. -/
theorem lhsBlk_apply (c : Dev nD) (t : Fin cfg0.N) (p j : Fin 1024) :
    lhsBlk m c t (ix2 p j) = rd2 (lhsArr m c) (t.val / 64 * 1024 + p.val) (t.val % 8 * 1024 + j.val) := by
  have hN := point_lt t
  have hp := p.isLt
  have hj := j.isLt
  rw [rd2_of_lt _ (by omega : t.val / 64 * 1024 + p.val < 16384) (by omega : t.val % 8 * 1024 + j.val < 8192)]
  show iblk m c 0 t (ix2 p j) = V m c main_v2 _
  unfold iblk
  rw [View.read_apply]
  show V m c main_v2 _ = V m c main_v2 _
  refine congrArg (V m c main_v2) (funext fun a => Fin.ext ?_)
  match a with
  | ⟨0, _⟩ => show win0_0.index t 0 * 1024 + 1 * p.val = t.val / 64 * 1024 + p.val; rw [(index_lhs t).1]; omega
  | ⟨1, _⟩ => show win0_0.index t 1 * 1024 + 1 * j.val = t.val % 8 * 1024 + j.val; rw [(index_lhs t).2]; omega

/-- Entry `(j, q)` of the right block at `t` is entry `(t % 8 * 1024 + j, t / 8 % 8 * 1024 + q)` of the right array. -/
theorem rhsBlk_apply (c : Dev nD) (t : Fin cfg0.N) (j q : Fin 1024) :
    rhsBlk m c t (ix2 j q) = rd2 (rhsArr m c) (t.val % 8 * 1024 + j.val) (t.val / 8 % 8 * 1024 + q.val) := by
  have hN := point_lt t
  have hq := q.isLt
  have hj := j.isLt
  rw [rd2_of_lt _ (by omega : t.val % 8 * 1024 + j.val < 8192) (by omega : t.val / 8 % 8 * 1024 + q.val < 8192)]
  show iblk m c 1 t (ix2 j q) = V m c main_v3 _
  unfold iblk
  rw [View.read_apply]
  show V m c main_v3 _ = V m c main_v3 _
  refine congrArg (V m c main_v3) (funext fun a => Fin.ext ?_)
  match a with
  | ⟨0, _⟩ => show win0_1.index t 0 * 1024 + 1 * j.val = t.val % 8 * 1024 + j.val; rw [(index_rhs t).1]; omega
  | ⟨1, _⟩ => show win0_1.index t 1 * 1024 + 1 * q.val = t.val / 8 % 8 * 1024 + q.val; rw [(index_rhs t).2]; omega

end Cert.KernelIdeal.Blocks

end
-- ==== Proof.Accumulate.lean ====
/-
  The running block of the blocked matrix product, point by point.

  Write `A` for the padded left array and `B` for the padded right array. Point `n` of the 16 × 8 × 8 grid works on
  output block `(n / 64, n / 8 % 8)` with contraction block `n % 8`; the eight points of one output block are
  consecutive. After point `n` the scratch block holds, at entry `(p, q)`,
      ∑ k < (n % 8 + 1) * 1024,  A (n / 64 * 1024 + p, k) * B (k, n / 8 % 8 * 1024 + q):
  the first point of an output block clears the scratch and adds the first 1024 products, every later point adds the
  next 1024 to what the point before left (the same output block, since `n % 8 ≠ 0`). By induction on the point; the
  extended reals' addition being associative and commutative, nothing is asked of the entries. The last point of an
  output block (`n % 8 = 7`) has all 8192 products and copies the block out.
-/
import proofs.«131804_j18124761989510_1_alg».proof.Proof.KernelPieces
import proofs.«131804_j18124761989510_1_alg».proof.Proof.Payload
import proofs.«131804_j18124761989510_1_alg».proof.Proof.Blocks

noncomputable section

open Idealize.ShloMosaic Idealize.ShloMosaic.TcCoe Idealize.ShloMosaic.ValueIdx Idealize.SL.Sem

namespace Cert.KernelIdeal.Accumulate

open Cert.KernelIdeal Cert.KernelIdeal.Gen Cert.LibDotBlocks Cert.KernelIdeal.Blocks

variable (m : (ℓ : Loc nD τ sig) → Buf (Elt Ideal) ℓ)

/-- What the scratch block, and the output's staging block, hold after point `n`. -/
abbrev acc (c : Dev nD) (n : ℕ) (h : n < cfg0.N) : FVec Ideal S1024x1024 .f32 := (outsAt0 m c n h).2
abbrev outBlk (c : Dev nD) (n : ℕ) (h : n < cfg0.N) : FVec Ideal S1024x1024 .f32 := (outsAt0 m c n h).1

/-! ### The three kinds of point, as values -/

theorem acc_first (c : Dev nD) (n : ℕ) (h : n < cfg0.N) (h0 : n % 8 = 0) :
    acc m c n h = k0_pay2 (F := Ideal) (lhsBlk m c ⟨n, h⟩) (rhsBlk m c ⟨n, h⟩) (k0_pay1 (F := Ideal)) := by
  have h1 : ¬n % 8 = 7 := by omega
  show (outsAt0 m c n h).2 = _
  rw [outsAt0_A m c ⟨n, h⟩ h0 h1]
  dsimp only
  exact Pieces.scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩)

theorem acc_middle (c : Dev nD) (n : ℕ) (h : n + 1 < cfg0.N) (h0 : ¬(n + 1) % 8 = 0) (h1 : ¬(n + 1) % 8 = 7) :
    acc m c (n + 1) h = k0_pay2 (F := Ideal) (lhsBlk m c ⟨n + 1, h⟩) (rhsBlk m c ⟨n + 1, h⟩) (acc m c n (Nat.lt_of_succ_lt h)) := by
  show (outsAt0 m c (n + 1) h).2 = _
  rw [outsAt0_B m c ⟨n + 1, h⟩ h0 h1]
  dsimp only
  exact Pieces.scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2

theorem acc_last (c : Dev nD) (n : ℕ) (h : n + 1 < cfg0.N) (h0 : ¬(n + 1) % 8 = 0) (h1 : (n + 1) % 8 = 7) :
    acc m c (n + 1) h = k0_pay2 (F := Ideal) (lhsBlk m c ⟨n + 1, h⟩) (rhsBlk m c ⟨n + 1, h⟩) (acc m c n (Nat.lt_of_succ_lt h)) := by
  show (outsAt0 m c (n + 1) h).2 = _
  rw [outsAt0_C m c ⟨n + 1, h⟩ h0 h1]
  dsimp only
  exact Pieces.scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2

/-- At the last point of an output block the output's staging block is the updated scratch. -/
theorem outBlk_last (c : Dev nD) (n : ℕ) (h : n + 1 < cfg0.N) (h0 : ¬(n + 1) % 8 = 0) (h1 : (n + 1) % 8 = 7) :
    outBlk m c (n + 1) h = acc m c (n + 1) h := by
  rw [acc_last m c n h h0 h1]
  show (outsAt0 m c (n + 1) h).1 = _
  rw [outsAt0_C m c ⟨n + 1, h⟩ h0 h1]
  dsimp only
  exact Pieces.out_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2

/-! ### One update at an entry, over the arrays -/

/-- The update at point `n`, entry `(p, q)`: the old entry plus the 1024 products of contraction block `n % 8`. -/
theorem update_entry (c : Dev nD) (n : ℕ) (h : n < cfg0.N) (old : FVec Ideal S1024x1024 .f32) (p q : Fin 1024) :
    k0_pay2 (F := Ideal) (lhsBlk m c ⟨n, h⟩) (rhsBlk m c ⟨n, h⟩) old (ix2 p q)
      = old (ix2 p q) + ∑ j : Fin 1024, rd2 (lhsArr m c) (n / 64 * 1024 + p.val) (n % 8 * 1024 + j.val)
          * rd2 (rhsArr m c) (n % 8 * 1024 + j.val) (n / 8 % 8 * 1024 + q.val) := by
  rw [Payload.update_apply]
  refine congrArg (old (ix2 p q) + ·) (Finset.sum_congr rfl fun j _ => ?_)
  rw [lhsBlk_apply m c ⟨n, h⟩ p j, rhsBlk_apply m c ⟨n, h⟩ j q]

/-! ### The invariant -/

/-- After point `n` the scratch's entry `(p, q)` is the dot product over the first `(n % 8 + 1) * 1024` positions. -/
theorem acc_entry (c : Dev nD) : ∀ (n : ℕ) (h : n < cfg0.N) (p q : Fin 1024),
    acc m c n h (ix2 p q)
      = dotUpTo (lhsArr m c) (rhsArr m c) (n / 64 * 1024 + p.val) (n / 8 % 8 * 1024 + q.val) ((n % 8 + 1) * 1024)
  | 0, h, p, q => by
    rw [acc_first m c 0 h rfl, update_entry, Payload.cleared_apply, zero_add]
    show _ = dotUpTo (lhsArr m c) (rhsArr m c) (0 / 64 * 1024 + p.val) (0 / 8 % 8 * 1024 + q.val) (0 + 1024)
    rw [dotUpTo_add, dotUpTo_zero, zero_add]
  | n + 1, h, p, q => by
    by_cases h0 : (n + 1) % 8 = 0
    · rw [acc_first m c (n + 1) h h0, update_entry, Payload.cleared_apply, zero_add, h0]
      show _ = dotUpTo (lhsArr m c) (rhsArr m c) ((n + 1) / 64 * 1024 + p.val) ((n + 1) / 8 % 8 * 1024 + q.val) (0 * 1024 + 1024)
      rw [dotUpTo_add, Nat.zero_mul, dotUpTo_zero, zero_add]
    · have ih := acc_entry c n (Nat.lt_of_succ_lt h) p q
      have e1 : (n + 1) / 64 = n / 64 := by omega
      have e2 : (n + 1) / 8 % 8 = n / 8 % 8 := by omega
      have e3 : (n + 1) % 8 = n % 8 + 1 := by omega
      have step : acc m c (n + 1) h = k0_pay2 (F := Ideal) (lhsBlk m c ⟨n + 1, h⟩) (rhsBlk m c ⟨n + 1, h⟩) (acc m c n (Nat.lt_of_succ_lt h)) := by
        by_cases h1 : (n + 1) % 8 = 7
        · exact acc_last m c n h h0 h1
        · exact acc_middle m c n h h0 h1
      rw [step, update_entry, ih, e1, e2, e3, show (n % 8 + 1 + 1) * 1024 = (n % 8 + 1) * 1024 + 1024 by omega, dotUpTo_add]

/-- So at the last point of an output block the output's staging block holds the product's entries. -/
theorem outBlk_entry (c : Dev nD) (n : ℕ) (h : n < cfg0.N) (h1 : n % 8 = 7) (p q : Fin 1024) :
    outBlk m c n h (ix2 p q)
      = dotUpTo (lhsArr m c) (rhsArr m c) (n / 64 * 1024 + p.val) (n / 8 % 8 * 1024 + q.val) 8192 := by
  obtain ⟨k, rfl⟩ : ∃ k, n = k + 1 := ⟨n - 1, by omega⟩
  rw [outBlk_last m c k h (by omega) h1, acc_entry m c (k + 1) h p q, h1]

end Cert.KernelIdeal.Accumulate

end
-- ==== Proof.Product.lean ====
/-
  The kernel region's result array: the whole matrix product.

  Only the last point of each output block (`t % 8 = 7`) writes its block back, and what it writes is, at entry
  `(p, q)`, the full dot product of row `t / 64 * 1024 + p` of the left array with column `t / 8 % 8 * 1024 + q` of the
  right one. The 16 × 8 output blocks tile the 16384 × 8192 result (entry `(r, s)` lies in the block written back at
  point `(r / 1024) * 64 + (s / 1024) * 8 + 7`), so the result array is `∑ k, A (r, k) * B (k, s)` at every entry.
-/
import proofs.«131804_j18124761989510_1_alg».proof.Proof.Accumulate

noncomputable section

open Idealize.ShloMosaic Idealize.ShloMosaic.TcCoe Idealize.ShloMosaic.ValueIdx Idealize.SL.Sem
open Idealize.ShloMosaic.Pipeline (Dat)

namespace Cert.KernelIdeal.Product

open Cert.KernelIdeal Cert.KernelIdeal.Gen Cert.LibDotBlocks Cert.KernelIdeal.Blocks Cert.KernelIdeal.Accumulate

variable (m : (ℓ : Loc nD τ sig) → Buf (Elt Ideal) ℓ)

/-- The product of a 16384 × 8192 matrix with an 8192 × 8192 matrix, entry by entry. -/
def product (A : FVec Ideal S16384x8192 .f32) (B : FVec Ideal S8192x8192 .f32) : FVec Ideal S16384x8192 .f32 :=
  fun i => ∑ k : Fin 8192, A (ix2 (i 0) k) * B (ix2 k (i 1))

theorem product_apply (A : FVec Ideal S16384x8192 .f32) (B : FVec Ideal S8192x8192 .f32) (r : Fin 16384) (s : Fin 8192) :
    product A B (ix2 r s) = ∑ k : Fin 8192, A (ix2 r k) * B (ix2 k s) := rfl

/-- What a writing point writes back is its block of the product. -/
theorem flushed_eq (c : Dev nD) (t : Fin cfg0.N) (hf : (cfg0.win 2).flush t = true) :
    (dats m 0 c).flushed 2 t = ((cfg0.win 2).blk t).view.read (Elt Ideal) (product (lhsArr m c) (rhsArr m c)) := by
  have h7 : t.val % 8 = 7 := (flush0_2 t).mp hf
  have hN := point_lt t
  show (cfg0.win 2).cut (grid0.coords t) ((dats m 0 c).after 2 t) = _
  rw [after0_2]
  funext y
  obtain ⟨p, q, rfl⟩ : ∃ (p q : Fin 1024), y = ix2 p q := ⟨y 0, y 1, eq_ix2 y⟩
  have hp := p.isLt
  have hq := q.isLt
  rw [View.read_apply]
  have he : ((cfg0.win 2).blk t).view.emb (ix2 p q)
      = ix2 (⟨t.val / 64 * 1024 + p.val, by omega⟩ : Fin 16384) (⟨t.val / 8 % 8 * 1024 + q.val, by omega⟩ : Fin 8192) :=
    funext fun a => Fin.ext (by
      match a with
      | ⟨0, _⟩ => show win0_2.index t 0 * 1024 + 1 * p.val = t.val / 64 * 1024 + p.val; rw [(index_out t).1]; omega
      | ⟨1, _⟩ => show win0_2.index t 1 * 1024 + 1 * q.val = t.val / 8 % 8 * 1024 + q.val; rw [(index_out t).2]; omega)
  rw [he, product_apply]
  show outBlk m c t.val t.isLt (ix2 p q) = _
  rw [outBlk_entry m c t.val t.isLt h7 p q]
  exact dotUpTo_full (lhsArr m c) (rhsArr m c) ⟨t.val / 64 * 1024 + p.val, by omega⟩ ⟨t.val / 8 % 8 * 1024 + q.val, by omega⟩

/-- Every entry of the result lies in a block some point writes back. -/
theorem covered (i : S16384x8192.Idx) :
    ∃ t : Fin cfg0.N, (cfg0.win 2).flush t = true ∧ i ∈ ((cfg0.win 2).blk t).view.set := by
  have h0 : (i 0).val < 16384 := (i 0).isLt
  have h1 : (i 1).val < 8192 := (i 1).isLt
  have hN : cfg0.N = 1024 := N_0
  obtain ⟨t, ht⟩ : ∃ t : Fin cfg0.N, t.val = (i 0).val / 1024 * 64 + (i 1).val / 1024 * 8 + 7 :=
    ⟨⟨(i 0).val / 1024 * 64 + (i 1).val / 1024 * 8 + 7, by omega⟩, rfl⟩
  refine ⟨t, (flush0_2 t).mpr (by omega), ?_⟩
  show i ∈ ((View.whole main_v4).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(index_out t).1]
    omega
  | ⟨1, _⟩ =>
    show win0_2.index t 1 * 1024 ≤ (i 1).val ∧ (i 1).val < win0_2.index t 1 * 1024 + 1024
    rw [(index_out t).2]
    omega

/-- The result array after the region: the product of the two operand arrays. -/
theorem result_eq (c : Dev nD) : (dats m 0 c).arrAt 2 cfg0.N = product (lhsArr m c) (rhsArr m c) :=
  (dats m 0 c).arrAt_eq_of_cover 2 (product (lhsArr m c) (rhsArr m c)) (flushed_eq m c) covered

end Cert.KernelIdeal.Product

end
-- ==== Proof.HostPrefix.lean ====
/-
  The two operand arrays the kernel region finds, as functions of the program's arguments.

  Before the region the program drops the first and last position of `x` (8 × 2048 × 8192 → 8 × 2046 × 8192), flattens
  the two leading axes (→ 16368 × 8192) and pads 16 zero rows below (→ 16384 × 8192); and it pads 192 zero columns to
  the right of the conversion matrix (8192 × 8000 → 8192 × 8192). So row `s * 2046 + p` of the left array is row
  `(s, p + 1)` of `x`, and the first 8000 columns of the right array are the conversion matrix. (The padding itself is
  never read by an entry the program keeps, and nothing is said of it here.)
-/
import proofs.«131804_j18124761989510_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

noncomputable section

open Idealize.ShloMosaic Idealize.ShloMosaic.TcCoe Idealize.ShloMosaic.ValueIdx Idealize.SL.Sem

namespace Cert.KernelIdeal.HostPrefix

open Cert.KernelIdeal Cert.KernelIdeal.Gen

variable {F : FTy → Type} [FloatOps F]
variable (m : (ℓ : Loc nD τ sig) → Buf (Elt F) ℓ)

/-- The left array: the slice of `x`, flattened, padded below. -/
theorem lhsArr_eq (c : Dev nD) : (V m c main_v2 : FVec F S16384x8192 .f32)
    = pad S16384x8192 ![0, 0] ![16, 0] ![0, 0]
        (shapeCast S16368x8192 (extractStridedSlice S8x2046x8192 ![0, 1, 0] (m ((c : Thread nD τ).loc main_arg0)) slices_S8x2048x8192_S8x2046x8192_0_1_0) shapeCasts_S8x2046x8192_S16368x8192)
        (sitofp (F := F) .f32 (constantI S_ 32 0#32)) pads_S16368x8192_S16384x8192_0160_000 h_S_ := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The right array: the conversion matrix, padded on the right. -/
theorem rhsArr_eq (c : Dev nD) : (V m c main_v3 : FVec F S8192x8192 .f32)
    = pad S8192x8192 ![0, 0] ![0, 192] ![0, 0] (m ((c : Thread nD τ).loc main_arg1))
        (sitofp (F := F) .f32 (constantI S_ 32 0#32)) pads_S8192x8000_S8192x8192_000_01920 h_S_ := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- Row `s * 2046 + p` of the left array is row `(s, p + 1)` of `x`. -/
theorem lhsArr_apply (c : Dev nD) (s : Fin 8) (p : Fin 2046) (k : Fin 8192) (hr : s.val * 2046 + p.val < 16384) (hp1 : p.val + 1 < 2048) :
    (V m c main_v2 : FVec F S16384x8192 .f32) (ix2 ⟨s.val * 2046 + p.val, hr⟩ k)
      = m ((c : Thread nD τ).loc main_arg0) (ix3 s ⟨p.val + 1, hp1⟩ k) := by
  have hs := s.isLt
  have hp := p.isLt
  have hk := k.isLt
  rw [lhsArr_eq]
  refine (pad_apply_of_inside ![0, 0] ![16, 0] ![0, 0] _ _ pads_S16368x8192_S16384x8192_0160_000 h_S_
    (ix2 ⟨s.val * 2046 + p.val, hr⟩ k) (ix2 ⟨s.val * 2046 + p.val, by omega⟩ k) (fun a => ?_)).trans ?_
  · match a with
    | ⟨0, _⟩ => show s.val * 2046 + p.val = 0 + (s.val * 2046 + p.val) * (0 + 1); omega
    | ⟨1, _⟩ => show k.val = 0 + k.val * (0 + 1); omega
  refine (shapeCast_apply _ shapeCasts_S8x2046x8192_S16368x8192 (ix2 ⟨s.val * 2046 + p.val, by omega⟩ k) (ix3 s p k) ?_).trans ?_
  · rw [Shape.rowMajor_val_three, Shape.rowMajor_val_two]
    rfl
  exact extractStridedSlice_apply ![0, 1, 0] _ slices_S8x2048x8192_S8x2046x8192_0_1_0 (ix3 s p k) (ix3 s ⟨p.val + 1, hp1⟩ k) (fun a => match a with
    | ⟨0, _⟩ => by show s.val = 0 + s.val; omega
    | ⟨1, _⟩ => by show p.val + 1 = 1 + p.val; omega
    | ⟨2, _⟩ => by show k.val = 0 + k.val; omega)

/-- The first 8000 columns of the right array are the conversion matrix. -/
theorem rhsArr_apply (c : Dev nD) (k : Fin 8192) (v : Fin 8000) (hv : v.val < 8192) :
    (V m c main_v3 : FVec F S8192x8192 .f32) (ix2 k ⟨v.val, hv⟩) = m ((c : Thread nD τ).loc main_arg1) (ix2 k v) := by
  rw [rhsArr_eq]
  exact pad_apply_of_inside ![0, 0] ![0, 192] ![0, 0] _ _ pads_S8192x8000_S8192x8192_000_01920 h_S_
    (ix2 k ⟨v.val, hv⟩) (ix2 k v) (fun a => match a with
      | ⟨0, _⟩ => by show k.val = 0 + k.val * (0 + 1); omega
      | ⟨1, _⟩ => by show v.val = 0 + v.val * (0 + 1); omega)

end Cert.KernelIdeal.HostPrefix

end
-- ==== Proof.Spec.lean ====
/-
  The function both programs compute, over the extended reals.

  For `x` of shape 8 × 2048 × 8192 and a conversion matrix `w` of shape 8192 × 8000, the result has shape
  8 × 2046 × 8000: position `p` of sequence `s` of the result is position `p + 1` of `x` (the first and the last
  position are dropped) multiplied into `w`,
      result (s, p, v) = ∑ k, x (s, p + 1, k) * w (k, v).
-/
import Idealize.ShloMosaic.Lib.ValueIdx
import Mathlib.Algebra.BigOperators.Fin

open Idealize.ShloMosaic Idealize.ShloMosaic.ValueIdx

namespace Cert.Spec

/-- One entry of the result. -/
noncomputable def entry (x : (⟨3, ![8, 2048, 8192]⟩ : Shape).Idx → EReal) (w : (⟨2, ![8192, 8000]⟩ : Shape).Idx → EReal)
    (s : Fin 8) (p : Fin 2046) (v : Fin 8000) : EReal :=
  ∑ k : Fin 8192, x (ix3 s ⟨p.val + 1, by have := p.isLt; omega⟩ k) * w (ix2 k v)

/-- The whole result. -/
noncomputable def result (x : (⟨3, ![8, 2048, 8192]⟩ : Shape).Idx → EReal) (w : (⟨2, ![8192, 8000]⟩ : Shape).Idx → EReal) :
    (⟨3, ![8, 2046, 8000]⟩ : Shape).Idx → EReal :=
  fun i => entry x w (i 0) (i 1) (i 2)

theorem result_apply (x : (⟨3, ![8, 2048, 8192]⟩ : Shape).Idx → EReal) (w : (⟨2, ![8192, 8000]⟩ : Shape).Idx → EReal)
    (s : Fin 8) (p : Fin 2046) (v : Fin 8000) : result x w (ix3 s p v) = entry x w s p v := rfl

end Cert.Spec
-- ==== Proof.KernelValue.lean ====
/-
  The kernel program's result, as the specification's function of its two arguments.

  After the region the program keeps the first 16368 rows and 8000 columns of the 16384 × 8192 product and splits the
  rows back into 8 sequences of 2046 positions. Entry `(s, p, v)` of the result is therefore entry
  `(s * 2046 + p, v)` of the product of the two padded operand arrays,
      ∑ k, A (s * 2046 + p, k) * B (k, v),
  and on these rows and columns the padded arrays are `x` (its positions shifted by the dropped first one) and the
  conversion matrix: `A (s * 2046 + p, k) = x (s, p + 1, k)`, `B (k, v) = w (k, v)`. No entry kept reads any padding.
-/
import proofs.«131804_j18124761989510_1_alg».proof.Proof.Product
import proofs.«131804_j18124761989510_1_alg».proof.Proof.HostPrefix
import proofs.«131804_j18124761989510_1_alg».proof.Proof.Spec
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.KernelIdeal.Blocks Cert.KernelIdeal.Product

variable (m : (ℓ : Loc nD τ sig) → Buf (Elt Ideal) ℓ) (ρ : Dev nD → PrngReg)

/-- The program's result buffer after the two operations that follow the region: the region's result array, cut to
    16368 × 8000 and reshaped to 8 × 2046 × 8000. -/
theorem tail_eq (c : Dev nD) :
    Pipeline.afterTail₀ cfgs (dats m) 0 (V0 m) [hostOps1] c main_v6
      = shapeCast S8x2046x8000 (extractStridedSlice S16368x8000 ![0, 0] ((dats m 0 c).arrAt 2 cfg0.N) slices_S16384x8192_S16368x8000_0_0)
          shapeCasts_S16368x8000_S8x2046x8000 := by
  unfold Pipeline.afterTail₀
  show StableHlo.after hostOps1 _ (Proc.devRef .tc main_v6) = _
  after_results
  rw [Pipeline.withArrays_arr spec0 launch0.win.arr_inj c _ _ 2]
  rfl

/-- Cutting a 16384 × 8192 array to 16368 × 8000 and splitting its rows into 8 × 2046: entry `(s, p, v)` of the outcome is
    entry `(s * 2046 + p, v)` of the array. -/
theorem cut_apply (P : FVec Ideal S16384x8192 .f32) (s : Fin 8) (p : Fin 2046) (v : Fin 8000)
    (hr : s.val * 2046 + p.val < 16384) (hv : v.val < 8192) :
    shapeCast S8x2046x8000 (extractStridedSlice S16368x8000 ![0, 0] P slices_S16384x8192_S16368x8000_0_0)
        shapeCasts_S16368x8000_S8x2046x8000 (ix3 s p v)
      = P (ix2 ⟨s.val * 2046 + p.val, hr⟩ ⟨v.val, hv⟩) := by
  have hs := s.isLt
  have hp := p.isLt
  refine (shapeCast_apply _ shapeCasts_S16368x8000_S8x2046x8000 (ix3 s p v)
    (ix2 (⟨s.val * 2046 + p.val, by omega⟩ : Fin 16368) v) ?_).trans ?_
  · rw [Shape.rowMajor_val_three, Shape.rowMajor_val_two]
    rfl
  exact extractStridedSlice_apply ![0, 0] _ slices_S16384x8192_S16368x8000_0_0 (ix2 (⟨s.val * 2046 + p.val, by omega⟩ : Fin 16368) v)
    (ix2 ⟨s.val * 2046 + p.val, hr⟩ ⟨v.val, hv⟩) (fun a => match a with
      | ⟨0, _⟩ => by show s.val * 2046 + p.val = 0 + (s.val * 2046 + p.val); omega
      | ⟨1, _⟩ => by show v.val = 0 + v.val; omega)

/-- The program's result is the specification's function of the two arguments. -/
theorem result_eq (c : Dev nD) :
    Pipeline.afterTail₀ cfgs (dats m) 0 (V0 m) [hostOps1] c main_v6
      = Cert.Spec.result (m ((c : Thread nD τ).loc main_arg0)) (m ((c : Thread nD τ).loc main_arg1)) := by
  rw [tail_eq, Product.result_eq]
  funext i
  obtain ⟨s, p, v, rfl⟩ : ∃ (s : Fin 8) (p : Fin 2046) (v : Fin 8000), i = ix3 s p v := ⟨i 0, i 1, i 2, eq_ix3 i⟩
  have hs := s.isLt
  have hp := p.isLt
  have hv := v.isLt
  refine (cut_apply (product (lhsArr m c) (rhsArr m c)) s p v (by omega) (by omega)).trans ?_
  rw [product_apply, Cert.Spec.result_apply]
  unfold Cert.Spec.entry
  refine Finset.sum_congr rfl fun k _ => ?_
  exact congrArg₂ (· * ·) (HostPrefix.lhsArr_apply m c s p k (by omega) (by omega)) (HostPrefix.rhsArr_apply m c k v (by omega))

/-- The program's run, read: the result buffer at the specification's function, the arguments unchanged. -/
theorem run : θ_run defs (onTc (τ := τ) (main (F := Ideal))) ⟨m, fun _ => 0, ρ⟩ fun r => ∀ c : Dev nD,
      r.2.mem ((c.tc : Thread nD τ).loc main_v6) = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelValue

end
-- ==== Proof.Reference.lean ====
/-
  The reference at the ideal instance: it drops the first and the last position of `x` and contracts the last axis
  with the conversion matrix's first, so its entry `(s, p, v)` is `∑ k, x (s, p + 1, k) * w (k, v)` — the function of
  the specification, read off the reference's two operations one at a time.
-/
import proofs.«131804_j18124761989510_1_alg».proof.Proof.Gen.ReferenceIdeal.Read
import proofs.«131804_j18124761989510_1_alg».proof.Proof.Spec

noncomputable section

open Idealize.ShloMosaic Idealize.ShloMosaic.TcCoe Idealize.ShloMosaic.ValueIdx Idealize.SL.Sem

namespace Cert.ReferenceIdeal.RefValue

open Cert.ReferenceIdeal Cert.ReferenceIdeal.Read

/-- The reference's result is the specification's function of its two arguments. -/
theorem reference_eq (x : FVec Ideal S8x2048x8192 .f32) (w : FVec Ideal S8192x8000 .f32) :
    val_main_v1 (F := Ideal) x w = Cert.Spec.result x w := by
  funext i
  obtain ⟨s, p, v, rfl⟩ : ∃ (s : Fin 8) (p : Fin 2046) (v : Fin 8000), i = ix3 s p v := ⟨i 0, i 1, i 2, eq_ix3 i⟩
  have hp := p.isLt
  rw [val_main_v1_apply, Cert.Spec.result_apply]
  unfold Cert.Spec.entry
  refine Finset.sum_congr rfl fun k _ => ?_
  rw [val_main_v0_apply]
  have el : idx_main_v0 (lidx_main_v1 (ix3 s p v) k) = ix3 s (⟨p.val + 1, by omega⟩ : Fin 2048) k :=
    funext fun a => Fin.ext (by
      match a with
      | ⟨0, _⟩ => rfl
      | ⟨1, _⟩ => show 1 + p.val = p.val + 1; omega
      | ⟨2, _⟩ => rfl)
  have er : ridx_main_v1 (ix3 s p v) k = ix2 k v :=
    funext fun a => Fin.ext (by
      match a with
      | ⟨0, _⟩ => rfl
      | ⟨1, _⟩ => rfl)
  rw [el, er]

end Cert.ReferenceIdeal.RefValue

end
-- ==== Proof.lean ====
/-
  A vocabulary conversion written as a dense matrix product: for `x` of shape 8 × 2048 × 8192 and a conversion matrix `w`
  of shape 8192 × 8000, drop the first and the last position of every sequence and multiply,
      result (s, p, v) = ∑ k, x (s, p + 1, k) * w (k, v)          (8 × 2046 × 8000).

  The reference does exactly this (a slice and one contraction). The kernel program flattens the 8 × 2046 kept rows
  to 16368, pads the rows with zeros to 16384 and the matrix's columns to 8192, computes the padded product block by
  block on a 16 × 8 × 8 grid of 1024 × 1024 blocks — for each output block a scratch block is cleared at the first
  contraction block, gets one block product added at each of the eight contraction blocks (the operands narrowed to
  bf16 for the matrix unit, the sum kept in f32), and is copied out at the last —, then cuts the result back to
  16368 × 8000 and splits the rows into 8 × 2046.

  Over the extended reals the two agree entry by entry: narrowing a float is the identity, the matrix unit's product
  into a zero block is the plain sum over the contracted axis, and eight consecutive partial sums of 1024 products each
  are the one sum of 8192 products, because addition of extended reals is associative and commutative — no finiteness
  is used, so the precondition is never opened. The contracted axis (8192) is not padded, and the padding rows and
  columns only reach entries that the final cut drops.

  The modules: `LibDotBlocks` (a dot product accumulated over consecutive stretches), `KernelPieces` and `Payload`
  (what one grid point leaves, as values and at an entry), `Blocks` (a point's input blocks inside the operand arrays),
  `Accumulate` (the scratch block after every point, by induction on the point), `Product` (the region's result array
  is the padded product), `HostPrefix` (the operand arrays from the arguments), `KernelValue` (the program's result),
  `Spec` and `Reference` (the common function, and the reference's result). The three frames are the generated ones;
  the idealization rewrote nothing.
-/
import proofs.«131804_j18124761989510_1_alg».proof.Defs
import proofs.«131804_j18124761989510_1_alg».proof.Proof.Gen.Kernel
import proofs.«131804_j18124761989510_1_alg».proof.Proof.Gen.Kernel.Frame
import proofs.«131804_j18124761989510_1_alg».proof.Proof.Gen.KernelIdeal
import proofs.«131804_j18124761989510_1_alg».proof.Proof.Gen.KernelIdeal.Frame
import proofs.«131804_j18124761989510_1_alg».proof.Proof.Gen.ReferenceIdeal
import proofs.«131804_j18124761989510_1_alg».proof.Proof.Gen.ReferenceIdeal.Run
import proofs.«131804_j18124761989510_1_alg».proof.Proof.Gen.ReferenceIdeal.Read
import proofs.«131804_j18124761989510_1_alg».proof.Proof.Gen.Pre_finite_inputs
import proofs.«131804_j18124761989510_1_alg».proof.Proof.KernelValue
import proofs.«131804_j18124761989510_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's function of the arguments, which agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
